-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_v30 : IVec S_ 1) (main_v32 : IVec S800000 1) : IVec S_ 1 :=
  let main_c_13 : IVec S_ 1 := constantI S_ 1 1#1
  let main_v33 : IVec S_ 1 := (fun x v => Host.reduce IntOp.andi x v reducesTo_S800000_S_d0 h_S_) main_v32 main_c_13
  let main_v34 : IVec S_ 1 := andi main_v30 main_v33
  main_v34

def fn_part1 {F : FTy → Type} [FloatOps F] (main_arg1 : IVec S800000 32) (main_arg2 : IVec S800000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg1 main_v19
  let main_c_7 : IVec S_ 1 := constantI S_ 1 1#1
  let main_v21 : IVec S_ 1 := (fun x v => Host.reduce IntOp.andi x v reducesTo_S800000_S_d0 h_S_) main_v20 main_c_7
  let main_v22 : IVec S_ 1 := andi main_v18 main_v21
  let main_c_8 : IVec S_ 32 := constantI S_ 32 50000#32
  let main_v23 : IVec S800000 32 := broadcastInDim S800000 ![] bcast_S_S800000 main_c_8
  let main_v24 : IVec S800000 1 := cmpi .slt main_arg1 main_v23
  let main_c_9 : IVec S_ 1 := constantI S_ 1 1#1
  let main_v25 : IVec S_ 1 := (fun x v => Host.reduce IntOp.andi x v reducesTo_S800000_S_d0 h_S_) main_v24 main_c_9
  let main_v26 : IVec S_ 1 := andi main_v22 main_v25
  let main_c_10 : IVec S_ 32 := constantI S_ 32 0#32
  let main_v27 : IVec S800000 32 := broadcastInDim S800000 ![] bcast_S_S800000 main_c_10
  let main_v28 : IVec S800000 1 := cmpi .sge main_arg2 main_v27
  let main_c_11 : IVec S_ 1 := constantI S_ 1 1#1
  let main_v29 : IVec S_ 1 := (fun x v => Host.reduce IntOp.andi x v reducesTo_S800000_S_d0 h_S_) main_v28 main_c_11
  let main_v30 : IVec S_ 1 := andi main_v26 main_v29
  let main_c_12 : IVec S_ 32 := constantI S_ 32 50000#32
  let main_v31 : IVec S800000 32 := broadcastInDim S800000 ![] bcast_S_S800000 main_c_12
  let main_v32 : IVec S800000 1 := cmpi .slt main_arg2 main_v31
  fn_part2 (F := F) main_v30 main_v32

def fn {F : FTy → Type} [FloatOps F] (main_arg0 : FVec F S50000x128 .f32) (main_arg1 : IVec S800000 32) (main_arg2 : IVec S800000 32) (main_arg3 : FVec F S800000 .f32) (main_arg4 : FVec F S64x128 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_v13 main_v16
-- ==== Kernel.lean ====
abbrev S50000x128 : Shape := ⟨2, ![50000, 128]⟩
abbrev S800000 : Shape := ⟨1, ![800000]⟩
abbrev S64x128 : Shape := ⟨2, ![64, 128]⟩
abbrev S64 : Shape := ⟨1, ![64]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩

abbrev nBuf : Space → Nat
  | .hbm => 39
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x128, .f32⟩
  | .hbm, ⟨5, _⟩ => ⟨S64, .f32⟩
  | .hbm, ⟨6, _⟩ => ⟨S50000x64, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000x1, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v2 : Ref sig .tc := ⟨.hbm, 22, rfl⟩
abbrev main_c_3 : Ref sig .tc := ⟨.hbm, 23, rfl⟩
abbrev main_v3 : Ref sig .tc := ⟨.hbm, 24, rfl⟩
abbrev main_v4 : Ref sig .tc := ⟨.hbm, 25, rfl⟩
abbrev main_c_4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S5000x128_S64x128_S5000x64_1_1_0_0_n_n_wf : DotDims.WF S5000x128 S64x128 S5000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)

variable [Facts₀]

def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S64x128 : Shape := ⟨2, ![64, 128]⟩
abbrev S64 : Shape := ⟨1, ![64]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S64x128, .f32⟩
  | .hbm, ⟨5, _⟩ => ⟨S64, .f32⟩
  | .hbm, ⟨6, _⟩ => ⟨S50000x64, .f32⟩
  | .hbm, ⟨7, _⟩ => ⟨S1x64, .f32⟩
  | .hbm, ⟨8, _⟩ => ⟨S50000x64, .f32⟩
  | .hbm, ⟨9, _⟩ => ⟨S50000x64, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x1, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  dot_S50000x128_S64x128_S50000x64_1_1_0_0_n_n_wf : DotDims.WF S50000x128 S64x128 S50000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S64x128_S50000x64_1_1_0_0_n_n : DotDims S50000x128 S64x128 S50000x64 where
  lhsContracting := [1]
  rhsContracting := [1]
  lhsNonContracting := [0]
  rhsNonContracting := [0]
  lhsBatch := []
  rhsBatch := []
  wf := dot_S50000x128_S64x128_S50000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Words.lean ====
/-
  Node indices as 32-bit words. An edge's endpoint is an index into the 50000 rows of the node table; for a
  word w whose signed value lies in [0, 50000):
    * clamping it into [0, 49999] leaves it as it is: max(0, w) = w because 0 ≤ w, and min(49999, w) = w because
      w ≤ 49999;
    * the wrap-around of a negative index (w + 50000 when w < 0, else w) leaves it as it is, because w is not
      negative.
  Both are stated on the signed readings of the words, the form in which a signed comparison that holds gives them.
-/
import Idealize.ShloMosaic.Lib.Affine

namespace Cert.Words

open Idealize.ShloMosaic

theorem toInt_zero : (0#32 : BitVec 32).toInt = 0 := by decide
theorem toInt_top : (49999#32 : BitVec 32).toInt = 49999 := by decide
theorem toInt_extent : (50000#32 : BitVec 32).toInt = 50000 := by decide

/-- max(0, w) = w for a word that is not negative. -/
theorem maxsi_zero_of_nonneg (w : BitVec 32) (h0 : 0 ≤ w.toInt) : IntOp.maxsi 0#32 w = w := by
  unfold IntOp.maxsi
  rw [if_neg]
  rw [BitVec.slt_iff_toInt_lt, toInt_zero]
  omega

/-- min(49999, w) = w for a word below 50000. -/
theorem minsi_top_of_lt (w : BitVec 32) (h1 : w.toInt < 50000) : IntOp.minsi 49999#32 w = w := by
  unfold IntOp.minsi
  rw [if_neg]
  rw [BitVec.slt_iff_toInt_lt, toInt_top]
  omega

/-- A word in [0, 50000) clamped into [0, 49999] is the word. -/
theorem clamp_of_inRange (w : BitVec 32) (h0 : 0 ≤ w.toInt) (h1 : w.toInt < 50000) :
    IntOp.minsi 49999#32 (IntOp.maxsi 0#32 w) = w := by
  rw [maxsi_zero_of_nonneg w h0, minsi_top_of_lt w h1]

/-- A word that is not negative is not wrapped around: the choice between w + 50000 and w, on w < 0, takes w. -/
theorem wrap_of_nonneg (w : BitVec 32) (h0 : 0 ≤ w.toInt) :
    Scalar.select (IntOp.cmpi .slt w 0#32) (IntOp.addi w 50000#32) w = w := by
  unfold Scalar.select
  rw [if_neg]
  intro h
  have := (IntOp.cmpi_slt (x := w) (y := 0#32)).1 h
  rw [toInt_zero] at this
  omega

end Cert.Words
-- ==== Proof.PreRanges.lean ====
/-
  What the precondition says about the two index arrays. The precondition is a conjunction of "every entry of ..."
  tests, one 800000-entry test per comparison: every source index is ≥ 0, every source index is < 50000, every
  destination index is ≥ 0, every destination index is < 50000 (after the four finiteness tests of the float arrays,
  which are not needed here). A conjunction that is 1 has every conjunct 1; an "every entry" test that is 1 has
  the comparison 1 at each entry; a signed comparison that is 1 orders the signed readings of its two words.
-/
import proofs.«411094_j3152505996047_3_alg».proof.Pre_finite_inputs
import Idealize.ShloMosaic.Lib.ReduceAll
import proofs.«411094_j3152505996047_3_alg».proof.Proof.Words

namespace Cert.PreRanges

open Idealize.ShloMosaic Cert.Pre_finite_inputs

variable [Facts]

instance : Subsingleton S_.Idx := ⟨fun a b => funext fun d => d.elim0⟩

/-- Under the precondition every source index and every destination index, read signed, lies in [0, 50000). -/
theorem inRange {F : FTy → Type} [FloatOps F] (a0 : FVec F S50000x128 .f32) (a1 a2 : IVec S800000 32)
    (a3 : FVec F S800000 .f32) (a4 : FVec F S64x128 .f32) (a5 : FVec F S64 .f32)
    (h : fn (F := F) a0 a1 a2 a3 a4 a5 = fun _ => 1#1) (k : S800000.Idx) :
    (0 ≤ (a1 k).toInt ∧ (a1 k).toInt < 50000) ∧ (0 ≤ (a2 k).toInt ∧ (a2 k).toInt < 50000) := by
  have e := congrFun h (fun d => d.elim0)
  dsimp only [fn, fn_part1, fn_part2] at e
  simp only [andi, IntOp.andi_eq_one] at e
  obtain ⟨⟨⟨⟨-, h1⟩, h2⟩, h3⟩, h4⟩ := e
  have g1 := Host.reduce_andi_all _ _ _ _ _ h1 k
  have g2 := Host.reduce_andi_all _ _ _ _ _ h2 k
  have g3 := Host.reduce_andi_all _ _ _ _ _ h3 k
  have g4 := Host.reduce_andi_all _ _ _ _ _ h4 k
  simp only [cmpi, broadcastInDim, constantI] at g1 g2 g3 g4
  have f1 := IntOp.cmpi_sge.1 g1
  have f2 := IntOp.cmpi_slt.1 g2
  have f3 := IntOp.cmpi_sge.1 g3
  have f4 := IntOp.cmpi_slt.1 g4
  rw [Cert.Words.toInt_zero] at f1 f3
  rw [Cert.Words.toInt_extent] at f2 f4
  exact ⟨⟨f1, f2⟩, ⟨f3, f4⟩⟩

end Cert.PreRanges
-- ==== Proof.Block.lean ====
/-
  One grid point of the linear layer, entry by entry. At a grid point the body holds a block X of 5000 rows of the
  feature table (5000 × 128), the whole weight table Wt (64 × 128) and the bias b (64), and stores

      Y[p, q] = ( Σ_{k < 128} X[p, k] · Wt[q, k] ) + b[q]      (p < 5000, q < 64).

  Over the extended reals the narrowing of X and Wt to half precision before the product is the identity, the matrix
  unit's product into a zero accumulator is the plain sum over the contracted axis k, and the bias, viewed as a
  1 × 64 row and repeated down the 5000 rows, is b[q] in every row.
-/
import proofs.«411094_j3152505996047_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## Which entries of the two factors an output entry multiplies -/

theorem lhs_0 (i : S5000x64.Idx) (c : dot_S5000x128_S64x128_S5000x64_1_1_0_0_n_n.contr.Idx) :
    (dot_S5000x128_S64x128_S5000x64_1_1_0_0_n_n.lhsIdx i c 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem lhs_1 (i : S5000x64.Idx) (c : dot_S5000x128_S64x128_S5000x64_1_1_0_0_n_n.contr.Idx) :
    (dot_S5000x128_S64x128_S5000x64_1_1_0_0_n_n.lhsIdx i c 1).val = (c ⟨0, by decide⟩).val :=
  dot_S5000x128_S64x128_S5000x64_1_1_0_0_n_n.lhsIdx_val_of_single rfl i c
theorem rhs_0 (i : S5000x64.Idx) (c : dot_S5000x128_S64x128_S5000x64_1_1_0_0_n_n.contr.Idx) :
    (dot_S5000x128_S64x128_S5000x64_1_1_0_0_n_n.rhsIdx i c 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem rhs_1 (i : S5000x64.Idx) (c : dot_S5000x128_S64x128_S5000x64_1_1_0_0_n_n.contr.Idx) :
    (dot_S5000x128_S64x128_S5000x64_1_1_0_0_n_n.rhsIdx i c 1).val = (c ⟨0, by decide⟩).val :=
  dot_S5000x128_S64x128_S5000x64_1_1_0_0_n_n.rhsIdx_val_of_single rfl i c

/-- The product of a 5000 × 128 block with the transposed 64 × 128 table, into zero: entry (p, q) is the sum over k of
    row p of the block against row q of the table. -/
theorem product_apply (l : FVec Ideal S5000x128 .bf16) (r : FVec Ideal S64x128 .bf16) (p : Fin 5000) (q : Fin 64) :
    FloatOps.matmul dot_S5000x128_S64x128_S5000x64_1_1_0_0_n_n none l r (constant S5000x64 .f32 0x00000000#32) (ix2 p q)
      = ∑ k : Fin 128, l (ix2 p k) * r (ix2 q k) := by
  rw [Ideal.matmul_constant_zero_apply, ← Equiv.sum_comp (contrEquiv1 dot_S5000x128_S64x128_S5000x64_1_1_0_0_n_n 128 rfl rfl).symm]
  refine Finset.sum_congr rfl fun k _ => ?_
  have hk := contrEquiv1_symm_val dot_S5000x128_S64x128_S5000x64_1_1_0_0_n_n 128 rfl rfl k
  have el : dot_S5000x128_S64x128_S5000x64_1_1_0_0_n_n.lhsIdx (ix2 p q) ((contrEquiv1 dot_S5000x128_S64x128_S5000x64_1_1_0_0_n_n 128 rfl rfl).symm k) = ix2 p k := funext fun a => Fin.ext (by
    match a with
    | ⟨0, _⟩ => exact lhs_0 _ _
    | ⟨1, _⟩ => exact (lhs_1 _ _).trans hk)
  have er : dot_S5000x128_S64x128_S5000x64_1_1_0_0_n_n.rhsIdx (ix2 p q) ((contrEquiv1 dot_S5000x128_S64x128_S5000x64_1_1_0_0_n_n 128 rfl rfl).symm k) = ix2 q k := funext fun a => Fin.ext (by
    match a with
    | ⟨0, _⟩ => exact rhs_0 _ _
    | ⟨1, _⟩ => exact (rhs_1 _ _).trans hk)
  rw [el, er]

/-- The bias as a 1 × 64 row repeated down the rows: entry (p, q) is b[q]. -/
theorem bias_apply (b : Vec Ideal S64 .f32) (p : Fin 5000) (q : Fin 64) :
    broadcastTo S5000x64 (shapeCast S1x64 b shapeCasts_S64_S1x64) broadcasts_S1x64_S5000x64 (ix2 p q) = b (ix1 q) := by
  rw [broadcastTo_apply _ broadcasts_S1x64_S5000x64 (ix2 p q) (ix2 (⟨0, Nat.one_pos⟩ : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])]
  rw [shapeCast_addUnit_apply]
  exact congrArg b (funext fun a => match a with | ⟨0, _⟩ => rfl)

/-- What the body stores, at entry (p, q) of its block. -/
theorem stored_apply (x : Vec Ideal S5000x128 .f32) (w : Vec Ideal S64x128 .f32) (b : Vec Ideal S64 .f32) (p : Fin 5000) (q : Fin 64) :
    k0_pay1 (F := Ideal) x w b (ix2 p q) = (∑ k : Fin 128, x (ix2 p k) * w (ix2 q k)) + b (ix1 q) := by
  unfold k0_pay1
  exact congrArg₂ (· + ·) (product_apply (truncf .bf16 x bitsLt_bf16_f32) (truncf .bf16 w bitsLt_bf16_f32) p q) (bias_apply b p q)

end Cert.KernelIdeal.Block

end
-- ==== Proof.Spec.lean ====
/-
  The linear layer as one function of whole arrays, over the extended reals: for a feature table X (50000 × 128), a
  weight table Wt (64 × 128) and a bias b (64),

      linear X Wt b [n, q] = ( Σ_{k < 128} X[n, k] · Wt[q, k] ) + b[q].

  Both programs compute this table of 50000 × 64 entries — one by a single product over all rows, the other block of
  5000 rows by block — and entry (n, q) depends on row n of X, row q of Wt and b[q] only.
-/
import Idealize.ShloMosaic.PureOps.Ideal
import Idealize.ShloMosaic.Lib.ValueIdx

noncomputable section

namespace Cert.Spec

open Idealize.ShloMosaic Idealize.ShloMosaic.ValueIdx

def linear (X : (⟨2, ![50000, 128]⟩ : Shape).Idx → EReal) (Wt : (⟨2, ![64, 128]⟩ : Shape).Idx → EReal)
    (b : (⟨1, ![64]⟩ : Shape).Idx → EReal) : (⟨2, ![50000, 64]⟩ : Shape).Idx → EReal :=
  fun i => (∑ k : Fin 128, X (ix2 (i 0) k) * Wt (ix2 (i 1) k)) + b (ix1 (i 1))

theorem linear_apply (X : (⟨2, ![50000, 128]⟩ : Shape).Idx → EReal) (Wt : (⟨2, ![64, 128]⟩ : Shape).Idx → EReal)
    (b : (⟨1, ![64]⟩ : Shape).Idx → EReal) (n : Fin 50000) (q : Fin 64) :
    linear X Wt b (ix2 n q) = (∑ k : Fin 128, X (ix2 n k) * Wt (ix2 q k)) + b (ix1 q) := rfl

end Cert.Spec

end
-- ==== Proof.Linear.lean ====
/-
  The node table the kernel's one region leaves. The grid has 10 points; point t holds rows 5000·t … 5000·t + 4999 of
  the feature table, the whole weight table and the whole bias, and writes back rows 5000·t … 5000·t + 4999 of the
  50000 × 64 result. By the entry-by-entry reading of one point (Block.lean), what point t writes back is block t of
  `Spec.linear feat W b`: entry (p, q) of the block is row 5000·t + p of the features against row q of the weights,
  plus b[q]. The ten blocks tile the result (row n lies in block n / 5000), so after the region the result array is
  `Spec.linear feat W b` everywhere.
-/
import proofs.«411094_j3152505996047_3_alg».proof.Proof.Gen.KernelIdeal.Frame
import proofs.«411094_j3152505996047_3_alg».proof.Proof.Block
import proofs.«411094_j3152505996047_3_alg».proof.Proof.Spec

set_option maxRecDepth 16384

noncomputable section

namespace Cert.KernelIdeal.Linear

open Cert.KernelIdeal Cert.KernelIdeal.Gen Idealize.ShloMosaic Idealize.ShloMosaic.TcCoe Idealize.ShloMosaic.ValueIdx
open Idealize.SL.Sem Cert.Spec

variable (m : (ℓ : Loc nD τ sig) → Buf (Elt Ideal) ℓ)

/-- One grid point against the whole-array function: a block x whose row p is row (i 0) of X, with the whole weight
    table and bias, stores at (p, q) what `linear X Wt b` holds at i = (i 0, q). -/
theorem point_eq (x : Vec Ideal S5000x128 .f32) (w : Vec Ideal S64x128 .f32) (b : Vec Ideal S64 .f32)
    (X : FVec Ideal S50000x128 .f32) (Wt : FVec Ideal S64x128 .f32) (B : FVec Ideal S64 .f32)
    (j : S5000x64.Idx) (i : S50000x64.Idx)
    (hx : ∀ k : Fin 128, x (ix2 (j 0) k) = X (ix2 (i 0) k)) (hw : ∀ y, w y = Wt y) (hb : ∀ y, b y = B y) (hq : i 1 = j 1) :
    k0_pay1 (F := Ideal) x w b j = linear X Wt B i := by
  obtain ⟨p, q, rfl⟩ : ∃ (p : Fin 5000) (q : Fin 64), j = ix2 p q := ⟨j 0, j 1, eq_ix2 j⟩
  have hq' : i 1 = q := hq
  have hx' : ∀ k : Fin 128, x (ix2 p k) = X (ix2 (i 0) k) := hx
  rw [Cert.KernelIdeal.Block.stored_apply]
  unfold linear
  rw [hq', hb]
  simp only [hx', hw]

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the feature window and the result window are at block row t, everything else at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the linear layer of the argument arrays as the region finds them. -/
theorem flushed_eq (c : Dev nD) (t : Fin cfg0.N) :
    (dats m 0 c).flushed 3 t
      = ((cfg0.win 3).blk t).view.read (Elt Ideal) (linear (V m c main_arg0) (V m c main_arg4) (V m c main_arg5)) := by
  show (cfg0.win 3).cut (grid0.coords t) ((dats m 0 c).after 3 t) = _
  rw [after0_3]
  unfold out0_3
  rw [View.canon_unit_zero hz]
  simp only [View.ld_unit_zero (S := S5000x128) hz, View.ld_unit_zero (S := S64x128) hz, View.ld_unit_zero (S := S64) hz1]
  obtain ⟨e0, e1, e2, e3, e4, e5, e6⟩ := idx_facts t
  funext j
  refine point_eq (iblk m c 0 t) (iblk m c 1 t) (iblk m c 2 t) (V m c main_arg0) (V m c main_arg4) (V m c main_arg5) j
    (((cfg0.win 3).blk t).view.emb j) ?_ ?_ ?_ ?_
  · intro k
    show V m c main_arg0 (((cfg0.win 0).blk t).view.emb (ix2 (j 0) k)) = V m c main_arg0 (ix2 ((((cfg0.win 3).blk t).view.emb j) 0) k)
    refine congrArg (V m c main_arg0) (funext fun a => Fin.ext ?_)
    match a with
    | ⟨0, _⟩ => show win0_0.index t (0 : Fin 2) * 5000 + 1 * (j 0).val = win0_3.index t (0 : Fin 2) * 5000 + 1 * (j 0).val; rw [e0, e5]
    | ⟨1, _⟩ => show win0_0.index t (1 : Fin 2) * 128 + 1 * k.val = k.val; rw [e1]; omega
  · intro y
    show V m c main_arg4 (((cfg0.win 1).blk t).view.emb y) = V m c main_arg4 y
    refine congrArg (V m c main_arg4) (funext fun a => Fin.ext ?_)
    match a with
    | ⟨0, _⟩ => show win0_1.index t (0 : Fin 2) * 64 + 1 * (y 0).val = (y 0).val; rw [e2]; omega
    | ⟨1, _⟩ => show win0_1.index t (1 : Fin 2) * 128 + 1 * (y 1).val = (y 1).val; rw [e3]; omega
  · intro y
    show V m c main_arg5 (((cfg0.win 2).blk t).view.emb y) = V m c main_arg5 y
    refine congrArg (V m c main_arg5) (funext fun a => Fin.ext ?_)
    match a with
    | ⟨0, _⟩ => show win0_2.index t (0 : Fin 1) * 64 + 1 * (y 0).val = (y 0).val; rw [e4]; omega
  · apply Fin.ext
    show win0_3.index t (1 : Fin 2) * 64 + 1 * (j 1).val = (j 1).val
    rw [e6]; omega

/-- An index of the result lies in point t's block iff each coordinate lies in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- The ten blocks tile the result: row n is written back by point n / 5000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, e5, e6⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the region is the linear layer of the argument arrays. -/
theorem final (c : Dev nD) :
    (dats m 0 c).arrAt 3 cfg0.N
      = linear (m ((c.tc : Thread nD τ).loc main_arg0)) (m ((c.tc : Thread nD τ).loc main_arg4)) (m ((c.tc : Thread nD τ).loc main_arg5)) :=
  (dats m 0 c).arrAt_eq_of_cover 3 _ (fun t _ => flushed_eq m c t) cover

end Cert.KernelIdeal.Linear

end
-- ==== Proof.Tail.lean ====
/-
  The kernel's whole run, read as a function of its arguments. After its one region has left the node table
  H = linear feat W b (Linear.lean), the program clamps both index arrays into [0, 49999], wraps a negative source
  index around (a step that never fires after the clamp), gathers the rows of H at the sources, scales row e by
  weight[e], and adds row e into row dst[e] of a zero table:

      out[n, q] = Σ_{e : dst'[e] = n} H[src'[e], q] · weight[e],     src' = wrap (clamp src),  dst' = clamp dst.

  `afterRegion` names these steps as one function of the node table, the two index arrays and the edge weights;
  `edges` names the same steps with the index arrays used as they are. An index in [0, 50000) is its own clamp and is not
  wrapped (Words.lean), so where every source and destination index is in range the two agree, and the run ends with
  the result at `edges (linear feat W b) src dst weight`.
-/
import proofs.«411094_j3152505996047_3_alg».proof.Proof.Linear
import proofs.«411094_j3152505996047_3_alg».proof.Proof.Words
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.ShloMosaic.StableHlo
open Idealize.SL.Sem Cert.Spec

/-- An index array clamped into [0, 49999], entry by entry. -/
def clamped (x : IVec S800000 32) : IVec S800000 32 :=
  minsi (broadcastInDim S800000 ![] bcast_S_S800000 (constantI S_ 32 49999#32))
    (maxsi (broadcastInDim S800000 ![] bcast_S_S800000 (constantI S_ 32 0#32)) x)

/-- An index array with its negative entries wrapped around the 50000 nodes. -/
def wrapped (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

/-- Gather the node table's rows at the edges' sources, scale each by its edge's weight, add each into its
    destination's row of a zero table. -/
def edges (h : FVec Ideal S50000x64 .f32) (src dst : IVec S800000 32) (ew : FVec Ideal S800000 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf (Host.gather gather_S50000x64_S800000x1_S800000x64_1_0_n_n_0_1_164 h (broadcastInDim S800000x1 ![0] bcast_S800000_S800000x1_0 src))
      (broadcastInDim S800000x64 ![0, 1] bcast_S800000x1_S800000x64_0_1 (broadcastInDim S800000x1 ![0] bcast_S800000_S800000x1_0 ew)))

/-- What the lines after the region compute from the node table, the index arrays and the edge weights. -/
def afterRegion (h : FVec Ideal S50000x64 .f32) (src dst : IVec S800000 32) (ew : FVec Ideal S800000 .f32) : FVec Ideal S50000x64 .f32 :=
  edges h (wrapped (clamped src)) (clamped dst) ew

/-- In-range indices are their own clamp. -/
theorem clamped_of_inRange (x : IVec S800000 32) (h : ∀ k, 0 ≤ (x k).toInt ∧ (x k).toInt < 50000) : clamped x = x := by
  funext k
  exact Cert.Words.clamp_of_inRange (x k) (h k).1 (h k).2

/-- Indices that are not negative are not wrapped. -/
theorem wrapped_of_nonneg (x : IVec S800000 32) (h : ∀ k, 0 ≤ (x k).toInt) : wrapped x = x := by
  funext k
  exact Cert.Words.wrap_of_nonneg (x k) (h k)

/-- With every index in range the clamps and the wrap do nothing. -/
theorem afterRegion_of_inRange (h : FVec Ideal S50000x64 .f32) (src dst : IVec S800000 32) (ew : FVec Ideal S800000 .f32)
    (hs : ∀ k, 0 ≤ (src k).toInt ∧ (src k).toInt < 50000) (hd : ∀ k, 0 ≤ (dst k).toInt ∧ (dst k).toInt < 50000) :
    afterRegion h src dst ew = edges h src dst ew := by
  unfold afterRegion
  rw [clamped_of_inRange src hs, clamped_of_inRange dst hd, wrapped_of_nonneg src fun k => (hs k).1]

variable (m : (ℓ : Loc nD τ sig) → Buf (Elt Ideal) ℓ)

set_option maxHeartbeats 4000000 in
/-- The result buffer after the lines that follow the region: those lines applied to the node table the region left
    and to the index and weight arrays, which the region does not touch. -/
theorem tail_read (c : Dev nD) :
    Pipeline.afterTail₀ cfgs (dats m) 0 (V0 m) [hostOps1, hostOps1_1, hostOps1_2, hostOps1_3, hostOps1_4] c main_v15
      = afterRegion ((dats m 0 c).arrAt 3 cfg0.N) (m ((c.tc : Thread nD τ).loc main_arg1)) (m ((c.tc : Thread nD τ).loc main_arg2))
          (m ((c.tc : Thread nD τ).loc main_arg3)) := by
  have e0 : Pipeline.withArrays (cfgs 0).spec c (V0 m c) (fun w => (dats m 0 c).arrAt w (cfgs 0).N) (Proc.devRef .tc main_v0)
      = (dats m 0 c).arrAt 3 cfg0.N := Pipeline.withArrays_arr spec0 launch0.win.arr_inj c _ _ 3
  have e1 : Pipeline.withArrays (cfgs 0).spec c (V0 m c) (fun w => (dats m 0 c).arrAt w (cfgs 0).N) (Proc.devRef .tc main_arg1)
      = m ((c.tc : Thread nD τ).loc main_arg1) :=
    Pipeline.withArrays_of_ne spec0 c (V0 m c) _ main_arg1 (by decide)
  have e2 : Pipeline.withArrays (cfgs 0).spec c (V0 m c) (fun w => (dats m 0 c).arrAt w (cfgs 0).N) (Proc.devRef .tc main_arg2)
      = m ((c.tc : Thread nD τ).loc main_arg2) :=
    Pipeline.withArrays_of_ne spec0 c (V0 m c) _ main_arg2 (by decide)
  have e3 : Pipeline.withArrays (cfgs 0).spec c (V0 m c) (fun w => (dats m 0 c).arrAt w (cfgs 0).N) (Proc.devRef .tc main_arg3)
      = m ((c.tc : Thread nD τ).loc main_arg3) :=
    Pipeline.withArrays_of_ne spec0 c (V0 m c) _ main_arg3 (by decide)
  unfold Pipeline.afterTail₀
  simp only [hostOps1, hostOps1_1, hostOps1_2, hostOps1_3, hostOps1_4, List.flatten_cons, List.flatten_nil, List.append_nil,
    List.cons_append, List.nil_append]
  after_results
  refine Eq.trans (b := afterRegion
      (Pipeline.withArrays (cfgs 0).spec c (V0 m c) (fun w => (dats m 0 c).arrAt w (cfgs 0).N) (Proc.devRef .tc main_v0))
      (Pipeline.withArrays (cfgs 0).spec c (V0 m c) (fun w => (dats m 0 c).arrAt w (cfgs 0).N) (Proc.devRef .tc main_arg1))
      (Pipeline.withArrays (cfgs 0).spec c (V0 m c) (fun w => (dats m 0 c).arrAt w (cfgs 0).N) (Proc.devRef .tc main_arg2))
      (Pipeline.withArrays (cfgs 0).spec c (V0 m c) (fun w => (dats m 0 c).arrAt w (cfgs 0).N) (Proc.devRef .tc main_arg3))) rfl ?_
  rw [e0, e1, e2, e3]

/-- The run: under in-range index arrays the program terminates with its result at the edge aggregate of the linear
    layer, and with its six arguments unchanged. -/
theorem run (ρ : Dev nD → PrngReg)
    (hs : ∀ (c : Dev nD) k, 0 ≤ (m ((c.tc : Thread nD τ).loc main_arg1) k).toInt ∧ (m ((c.tc : Thread nD τ).loc main_arg1) k).toInt < 50000)
    (hd : ∀ (c : Dev nD) k, 0 ≤ (m ((c.tc : Thread nD τ).loc main_arg2) k).toInt ∧ (m ((c.tc : Thread nD τ).loc main_arg2) k).toInt < 50000) :
    θ_run defs (onTc (τ := τ) (main (F := Ideal))) ⟨m, fun _ => 0, ρ⟩ (fun r => ∀ c : Dev nD,
      r.2.mem ((c.tc : Thread nD τ).loc main_v15)
          = edges (linear (m ((c.tc : Thread nD τ).loc main_arg0)) (m ((c.tc : Thread nD τ).loc main_arg4)) (m ((c.tc : Thread nD τ).loc main_arg5)))
              (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h c).2 main_v15 (Pipeline.mem_restRefs_of main_v15 (by decide) (by decide))).trans
          ((tail_read m c).trans ((congrArg (fun H => afterRegion H _ _ _) (Cert.KernelIdeal.Linear.final m c)).trans
            (afterRegion_of_inRange _ _ _ _ (hs c) (hd c)))),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).1 1).trans (((dats m 0 c).arrAt_in 1 rfl _).trans ((A_eq m c 1).trans (V_main_arg4 m c))),
        ((h c).1 2).trans (((dats m 0 c).arrAt_in 2 rfl _).trans ((A_eq m c 2).trans (V_main_arg5 m c)))⟩)
    (run_main m ρ)

end Cert.KernelIdeal.Tail

end
-- ==== Proof.Reference.lean ====
/-
  The reference, read as a function of its six arguments. It computes

      H[n, q]   = ( Σ_{k < 128} feat[n, k] · W[q, k] ) + b[q]            the node table after the linear layer, 50000 × 64
      M[e, q]   = H[src'[e], q] · weight[e]                              one message per edge, 800000 × 64
      out[n, q] = Σ_{e : dst[e] = n} M[e, q]                             the messages summed at their destinations

  where src'[e] is src[e] with a negative index wrapped around (src[e] + 50000 when src[e] < 0). `hidden` names H,
  `aggregate` names the two edge steps as one function of the node table, the two index arrays and the edge
  weights, and `wrapped` names src'. The reference's run ends with its result at `aggregate (hidden …) (wrapped src) dst weight`.
  A source index that is not negative is not wrapped, so where every source index is ≥ 0 that is
  `aggregate (hidden …) src dst weight`.
-/
import proofs.«411094_j3152505996047_3_alg».proof.Proof.Gen.ReferenceIdeal.Run
import proofs.«411094_j3152505996047_3_alg».proof.Proof.Gen.ReferenceIdeal.Read
import proofs.«411094_j3152505996047_3_alg».proof.Proof.Words
import proofs.«411094_j3152505996047_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem

/-- The node table after the linear layer: feat · Wᵀ + b. -/
def hidden (x : FVec Ideal S50000x128 .f32) (w : FVec Ideal S64x128 .f32) (b : FVec Ideal S64 .f32) : FVec Ideal S50000x64 .f32 :=
  addf (Host.dotGeneral dot_S50000x128_S64x128_S50000x64_1_1_0_0_n_n none x w)
    (broadcastInDim S50000x64 ![0, 1] bcast_S1x64_S50000x64_0_1 (broadcastInDim S1x64 ![1] bcast_S64_S1x64_1 b))

/-- Entry (n, q) of the node table: row n of the features against row q of the weights, plus b[q]. -/
theorem hidden_apply (x : FVec Ideal S50000x128 .f32) (w : FVec Ideal S64x128 .f32) (b : FVec Ideal S64 .f32) (n : Fin 50000) (q : Fin 64) :
    hidden x w b (ix2 n q) = (∑ k : Fin 128, x (ix2 n k) * w (ix2 q k)) + b (ix1 q) := by
  show val_main_v3 (F := Ideal) x w b (ix2 n q) = _
  rw [val_main_v3_apply, val_main_v0_apply, val_main_v2_apply, val_main_v1_apply]
  have el : ∀ k : Fin 128, lidx_main_v0 (ix2 n q) k = ix2 n k := fun k => funext fun a => match a with
    | ⟨0, _⟩ => rfl
    | ⟨1, _⟩ => rfl
  have er : ∀ k : Fin 128, ridx_main_v0 (ix2 n q) k = ix2 q k := fun k => funext fun a => match a with
    | ⟨0, _⟩ => rfl
    | ⟨1, _⟩ => rfl
  have eb : idx_main_v1 (idx_main_v2 (ix2 n q)) = ix1 q := funext fun a => match a with
    | ⟨0, _⟩ => rfl
  simp only [el, er, eb]
  rfl

/-- The node table is the linear layer of the three arrays. -/
theorem hidden_eq_linear (x : FVec Ideal S50000x128 .f32) (w : FVec Ideal S64x128 .f32) (b : FVec Ideal S64 .f32) :
    hidden x w b = Cert.Spec.linear x w b := by
  funext i
  obtain ⟨n, q, rfl⟩ : ∃ (n : Fin 50000) (q : Fin 64), i = ix2 n q := ⟨i 0, i 1, eq_ix2 i⟩
  rw [hidden_apply]
  rfl

/-- A source index array with its negative entries wrapped around the 50000 nodes. -/
def wrapped (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- Where every source index is ≥ 0 nothing is wrapped. -/
theorem wrapped_of_nonneg (src : IVec S800000 32) (h : ∀ k, 0 ≤ (src k).toInt) : wrapped src = src := by
  funext k
  exact Cert.Words.wrap_of_nonneg (src k) (h k)

/-- Gather the node table's rows at the edges' sources, scale each by its edge's weight, and add each into its
    destination's row of a zero table. -/
def aggregate (h : FVec Ideal S50000x64 .f32) (src dst : IVec S800000 32) (ew : FVec Ideal S800000 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf (Host.gather gather_S50000x64_S800000x1_S800000x64_1_0_n_n_0_1_164 h (broadcastInDim S800000x1 ![0] bcast_S800000_S800000x1_0 src))
      (broadcastInDim S800000x64 ![0, 1] bcast_S800000x1_S800000x64_0_1 (broadcastInDim S800000x1 ![0] bcast_S800000_S800000x1_0 ew)))

/-- The reference's run: it terminates with its result at the aggregate of the node table over the edges, the source
    indices wrapped, and with its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = aggregate (hidden (m ((c.tc : Thread nD τ).loc main_arg0)) (m ((c.tc : Thread nD τ).loc main_arg4)) (m ((c.tc : Thread nD τ).loc main_arg5)))
              (wrapped (m ((c.tc : Thread nD τ).loc main_arg1))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run (F := Ideal) m ρ

end Cert.ReferenceIdeal.RefValue

end
-- ==== Proof.lean ====
/-
  A graph layer: out = segment_sum( (feat · Wᵀ + b)[src] · weight[:, None], dst ), over 50000 nodes and 800000 edges.

  Both programs compute, over the extended reals,

      H[n, q]   = ( Σ_{k < 128} feat[n, k] · W[q, k] ) + b[q]         (the linear layer, 50000 × 64)
      out[n, q] = Σ_{e : dst[e] = n} H[src[e], q] · weight[e]         (one message per edge, summed at its destination).

  They differ in two places. The linear layer: the reference takes one product over all 50000 rows; the kernel's
  region takes ten blocks of 5000 rows, each narrowed to half precision (the identity on extended reals) and
  multiplied on the matrix unit into a zero accumulator — entry by entry the same sum over k (Block.lean, Linear.lean,
  Reference.lean, joined through Spec.linear). The indices: the kernel first clamps src and dst into [0, 49999]; the
  reference uses them as they are, wrapping a negative source index around. The precondition says every source and
  destination index lies in [0, 50000) (PreRanges.lean): such an index is its own clamp and is never wrapped
  (Words.lean), so both programs gather and scatter at the same index arrays, and the edge steps are then the same
  operations applied to the same node table (Tail.lean for the kernel, Reference.lean for the reference).

  The three frames are the generated ones (the reference's is its run with the result dropped); the idealization
  rewrote no operation, so there is nothing to preserve.
-/
import proofs.«411094_j3152505996047_3_alg».proof.Defs
import proofs.«411094_j3152505996047_3_alg».proof.Proof.Gen.Kernel
import proofs.«411094_j3152505996047_3_alg».proof.Proof.Gen.Kernel.Skeleton
import proofs.«411094_j3152505996047_3_alg».proof.Proof.Gen.Kernel.Launch
import proofs.«411094_j3152505996047_3_alg».proof.Proof.Gen.Kernel.Points
import proofs.«411094_j3152505996047_3_alg».proof.Proof.Gen.Kernel.Frame
import proofs.«411094_j3152505996047_3_alg».proof.Proof.Gen.KernelIdeal
import proofs.«411094_j3152505996047_3_alg».proof.Proof.Gen.KernelIdeal.Skeleton
import proofs.«411094_j3152505996047_3_alg».proof.Proof.Gen.KernelIdeal.Launch
import proofs.«411094_j3152505996047_3_alg».proof.Proof.Gen.KernelIdeal.Points
import proofs.«411094_j3152505996047_3_alg».proof.Proof.Gen.KernelIdeal.Frame
import proofs.«411094_j3152505996047_3_alg».proof.Proof.Gen.ReferenceIdeal
import proofs.«411094_j3152505996047_3_alg».proof.Proof.Gen.Pre_finite_inputs
import proofs.«411094_j3152505996047_3_alg».proof.Proof.PreRanges
import proofs.«411094_j3152505996047_3_alg».proof.Proof.Tail
import proofs.«411094_j3152505996047_3_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the edge aggregate of the linear layer of the (agreeing) arguments: the kernel because its
    clamps do nothing on in-range indices, the reference because its wrap-around does nothing on them. -/
theorem algebraic : Cert.algebraic_KernelIdeal_ReferenceIdeal := by
  intro m ρ m' ρ' hpre hagree
  have hr := fun (c : Dev Cert.KernelIdeal.nD) k => Cert.PreRanges.inRange _ _ _ _ _ _ (hpre c) k
  refine ⟨fun c => Cert.KernelIdeal.Tail.edges
      (Cert.Spec.linear (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Tail.run m ρ (fun c k => (hr c k).1) (fun c k => (hr c k).2), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  rw [Cert.ReferenceIdeal.RefValue.hidden_eq_linear, Cert.ReferenceIdeal.RefValue.wrapped_of_nonneg _ (fun k => (hr c k).1.1)]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
